-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x2 : Shape := ⟨3, ![256, 256, 2]⟩
abbrev S512x256x256 : Shape := ⟨3, ![512, 256, 256]⟩
abbrev S512x2 : Shape := ⟨2, ![512, 2]⟩
abbrev S512x1 : Shape := ⟨2, ![512, 1]⟩
abbrev S_ : Shape := ⟨0, ![]⟩

class Facts : Prop where
  bcast_S_S256x256x2 : S_.BroadcastsInDim S256x256x2 (![] : Fin 0 → Fin S256x256x2.rank)
  reducesTo_S256x256x2_S_d0_1_2 : S256x256x2.ReducesTo [0, 1, 2] S_
  h_S_ : 0 < S_.numel
  bcast_S_S512x256x256 : S_.BroadcastsInDim S512x256x256 (![] : Fin 0 → Fin S512x256x256.rank)
  reducesTo_S512x256x256_S_d0_1_2 : S512x256x256.ReducesTo [0, 1, 2] S_
  bcast_S_S512x2 : S_.BroadcastsInDim S512x2 (![] : Fin 0 → Fin S512x2.rank)
  reducesTo_S512x2_S_d0_1 : S512x2.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_arg4 : FVec F S512x1 .f32) (main_arg5 : FVec F S512x1 .f32) (main_v13 : IVec S_ 1) (main_v16 : IVec S512x2 1) : IVec S_ 1 :=
  let main_c_5 : IVec S_ 1 := constantI S_ 1 1#1
  let main_v17 : IVec S_ 1 := (fun x v => Host.reduce IntOp.andi x v reducesTo_S512x2_S_d0_1 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S512x1 .f32 := Host.absf main_arg5
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  main_v28

def fn {F : FTy → Type} [FloatOps F] (main_arg0 : FVec F S256x256x2 .f32) (main_arg1 : FVec F S512x256x256 .f32) (main_arg2 : FVec F S512x2 .f32) (main_arg3 : FVec F S512x2 .f32) (main_arg4 : FVec F S512x1 .f32) (main_arg5 : FVec F S512x1 .f32) : IVec S_ 1 :=
  let main_v0 : FVec F S256x256x2 .f32 := Host.absf main_arg0
  let main_cst : FVec F S_ .f32 := constant S_ .f32 0x7F800000#32
  let main_v1 : FVec F S256x256x2 .f32 := broadcastInDim S256x256x2 ![] bcast_S_S256x256x2 main_cst
  let main_v2 : IVec S256x256x2 1 := cmpf .olt main_v0 main_v1
  let main_c : IVec S_ 1 := constantI S_ 1 1#1
  let main_v3 : IVec S_ 1 := (fun x v => Host.reduce IntOp.andi x v reducesTo_S256x256x2_S_d0_1_2 h_S_) main_v2 main_c
  let main_v4 : FVec F S512x256x256 .f32 := Host.absf main_arg1
  let main_cst_0 : FVec F S_ .f32 := constant S_ .f32 0x7F800000#32
  let main_v5 : FVec F S512x256x256 .f32 := broadcastInDim S512x256x256 ![] bcast_S_S512x256x256 main_cst_0
  let main_v6 : IVec S512x256x256 1 := cmpf .olt main_v4 main_v5
  let main_c_1 : IVec S_ 1 := constantI S_ 1 1#1
  let main_v7 : IVec S_ 1 := (fun x v => Host.reduce IntOp.andi x v reducesTo_S512x256x256_S_d0_1_2 h_S_) main_v6 main_c_1
  let main_v8 : IVec S_ 1 := andi main_v3 main_v7
  let main_v9 : FVec F S512x2 .f32 := Host.absf main_arg2
  let main_cst_2 : FVec F S_ .f32 := constant S_ .f32 0x7F800000#32
  let main_v10 : FVec F S512x2 .f32 := broadcastInDim S512x2 ![] bcast_S_S512x2 main_cst_2
  let main_v11 : IVec S512x2 1 := cmpf .olt main_v9 main_v10
  let main_c_3 : IVec S_ 1 := constantI S_ 1 1#1
  let main_v12 : IVec S_ 1 := (fun x v => Host.reduce IntOp.andi x v reducesTo_S512x2_S_d0_1 h_S_) main_v11 main_c_3
  let main_v13 : IVec S_ 1 := andi main_v8 main_v12
  let main_v14 : FVec F S512x2 .f32 := Host.absf main_arg3
  let main_cst_4 : FVec F S_ .f32 := constant S_ .f32 0x7F800000#32
  let main_v15 : FVec F S512x2 .f32 := broadcastInDim S512x2 ![] bcast_S_S512x2 main_cst_4
  let main_v16 : IVec S512x2 1 := cmpf .olt main_v14 main_v15
  fn_part1 (F := F) main_arg4 main_arg5 main_v13 main_v16
-- ==== Kernel.lean ====
abbrev S256x256x2 : Shape := ⟨3, ![256, 256, 2]⟩
abbrev S512x256x256 : Shape := ⟨3, ![512, 256, 256]⟩
abbrev S512x2 : Shape := ⟨2, ![512, 2]⟩
abbrev S512x1 : Shape := ⟨2, ![512, 1]⟩
abbrev S256x256x1 : Shape := ⟨3, ![256, 256, 1]⟩
abbrev S256x256 : Shape := ⟨2, ![256, 256]⟩
abbrev S1x1 : Shape := ⟨2, ![1, 1]⟩
abbrev S16x2 : Shape := ⟨2, ![16, 2]⟩
abbrev S16x1 : Shape := ⟨2, ![16, 1]⟩
abbrev S64x256 : Shape := ⟨2, ![64, 256]⟩
abbrev S16x64x256 : Shape := ⟨3, ![16, 64, 256]⟩
abbrev S1x64x256 : Shape := ⟨3, ![1, 64, 256]⟩
abbrev S16x1x1 : Shape := ⟨3, ![16, 1, 1]⟩
abbrev S16x64 : Shape := ⟨2, ![16, 64]⟩
abbrev S16 : Shape := ⟨1, ![16]⟩
abbrev S1x16 : Shape := ⟨2, ![1, 16]⟩
abbrev S1 : Shape := ⟨1, ![1]⟩
abbrev S_ : Shape := ⟨0, ![]⟩

abbrev nBuf : Space → Nat
  | .hbm => 12
  | .vmem => 16
  | .smem => 0
  | _ => 0

abbrev bufTy : (tb : Table) → Fin (tcTables nBuf tb) → BufTy
  | .hbm, ⟨0, _⟩ => ⟨S256x256x2, .f32⟩
  | .hbm, ⟨1, _⟩ => ⟨S512x256x256, .f32⟩
  | .hbm, ⟨2, _⟩ => ⟨S512x2, .f32⟩
  | .hbm, ⟨3, _⟩ => ⟨S512x2, .f32⟩
  | .hbm, ⟨4, _⟩ => ⟨S512x1, .f32⟩
  | .hbm, ⟨5, _⟩ => ⟨S512x1, .f32⟩
  | .hbm, ⟨6, _⟩ => ⟨S256x256x1, .f32⟩
  | .hbm, ⟨7, _⟩ => ⟨S256x256, .f32⟩
  | .hbm, ⟨8, _⟩ => ⟨S256x256x1, .f32⟩
  | .hbm, ⟨9, _⟩ => ⟨S256x256, .f32⟩
  | .hbm, ⟨10, _⟩ => ⟨S1x1, .f32⟩
  | .hbm, ⟨11, _⟩ => ⟨S_, .f32⟩
  | .local _ .vmem, ⟨0, _⟩ => ⟨S16x2, .f32⟩
  | .local _ .vmem, ⟨1, _⟩ => ⟨S16x2, .f32⟩
  | .local _ .vmem, ⟨2, _⟩ => ⟨S16x2, .f32⟩
  | .local _ .vmem, ⟨3, _⟩ => ⟨S16x2, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S16x64x256, .f32⟩
  | .local _ .vmem, ⟨13, _⟩ => ⟨S16x64x256, .f32⟩
  | .local _ .vmem, ⟨14, _⟩ => ⟨S1x1, .f32⟩
  | .local _ .vmem, ⟨15, _⟩ => ⟨S1x1, .f32⟩
  | _, _ => ⟨S256x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg0 : BitVec 32 := BitVec.ofNat 32 (i 0).val
  let c31_i32 : BitVec 32 := 31#32
  let v64 : BitVec 1 := Scalar.cmpi .eq arg0 c31_i32
  let arg1 : BitVec 32 := BitVec.ofNat 32 (i 1).val
  let c3_i32 : BitVec 32 := 3#32
  let v65 : BitVec 1 := Scalar.cmpi .eq arg1 c3_i32
  let v66 : BitVec 1 := Scalar.andi v64 v65
  let v67 : BitVec 32 := Scalar.extui v66
  let c0_i32_24 : BitVec 32 := 0#32
  let v68 : BitVec 1 := Scalar.cmpi .ne v67 c0_i32_24
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

class Facts₀ : Prop where
  slices_S256x256x2_S256x256x1_0_0_0 : S256x256x2.Slices ![0, 0, 0] S256x256x1
  shapeCasts_S256x256x1_S256x256 : S256x256x1.ShapeCasts S256x256
  slices_S256x256x2_S256x256x1_0_0_1 : S256x256x2.Slices ![0, 0, 1] S256x256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x2_S16x2_0_0 : ∀ a, (![0, 0] : Fin 2 → Nat) a + S16x2.size a ≤ S16x2.size a
  h_S16x2 : 0 < S16x2.numel
  slices_S16x2_o0_0_S16x1 : S16x2.Slices ![0, 0] S16x1
  slices_S16x2_o0_1_S16x1 : S16x2.Slices ![0, 1] S16x1
  inb_S16x1_S16x1_0_0 : ∀ a, (![0, 0] : Fin 2 → Nat) a + S16x1.size a ≤ S16x1.size a
  h_S16x1 : 0 < S16x1.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S1x64x256 : S64x256.ShapeCasts S1x64x256
  shapeCasts_S16x1_S16x1x1 : S16x1.ShapeCasts S16x1x1
  broadcasts_S1x64x256_S16x64x256 : S1x64x256.Broadcasts S16x64x256
  broadcasts_S16x1x1_S16x64x256 : S16x1x1.Broadcasts S16x64x256
  inb_S16x64x256_S16x64x256_0_0_0 : ∀ a, (![0, 0, 0] : Fin 3 → Nat) a + S16x64x256.size a ≤ S16x64x256.size a
  h_S16x64x256 : 0 < S16x64x256.numel
  reduces_S16x64x256_S16x64 : S16x64x256.Reduces [2] S16x64
  reduces_S16x64_S16 : S16x64.Reduces [1] S16
  shapeCasts_S16_S1x16 : S16.ShapeCasts S1x16
  reduces_S1x16_S1 : S1x16.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2.size a ≤ S512x2.size a
  hwx0_0 : ∀ i : grid0.Coords, EltTy.bits .f32 = 32 ∨ (Rect.block (s := S512x2) S16x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2.size a ≤ S512x2.size a
  hwx0_1 : ∀ i : grid0.Coords, EltTy.bits .f32 = 32 ∨ (Rect.block (s := S512x2) S16x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S512x1.size a
  hwx0_2 : ∀ i : grid0.Coords, EltTy.bits .f32 = 32 ∨ (Rect.block (s := S512x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S512x1.size a
  hwx0_3 : ∀ i : grid0.Coords, EltTy.bits .f32 = 32 ∨ (Rect.block (s := S512x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S256x256.size a
  hwx0_4 : ∀ i : grid0.Coords, EltTy.bits .f32 = 32 ∨ (Rect.block (s := S256x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S256x256.size a
  hwx0_5 : ∀ i : grid0.Coords, EltTy.bits .f32 = 32 ∨ (Rect.block (s := S256x256) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x64x256.size a ≤ S512x256x256.size a
  hwx0_6 : ∀ i : grid0.Coords, EltTy.bits .f32 = 32 ∨ (Rect.block (s := S512x256x256) S16x64x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

abbrev win0_0 : Pipeline.Window sig grid0 :=
  Pipeline.Window.ofSpec (Memref.whole main_arg2) S16x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S16x64x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S256x256x2 : Shape := ⟨3, ![256, 256, 2]⟩
abbrev S512x256x256 : Shape := ⟨3, ![512, 256, 256]⟩
abbrev S512x2 : Shape := ⟨2, ![512, 2]⟩
abbrev S512x1 : Shape := ⟨2, ![512, 1]⟩
abbrev S65536x2 : Shape := ⟨2, ![65536, 2]⟩
abbrev S1x65536x2 : Shape := ⟨3, ![1, 65536, 2]⟩
abbrev S512x1x2 : Shape := ⟨3, ![512, 1, 2]⟩
abbrev S512x65536x2 : Shape := ⟨3, ![512, 65536, 2]⟩
abbrev S512x65536x1 : Shape := ⟨3, ![512, 65536, 1]⟩
abbrev S512x65536 : Shape := ⟨2, ![512, 65536]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S256x256x2, .f32⟩
  | .hbm, ⟨1, _⟩ => ⟨S512x256x256, .f32⟩
  | .hbm, ⟨2, _⟩ => ⟨S512x2, .f32⟩
  | .hbm, ⟨3, _⟩ => ⟨S512x2, .f32⟩
  | .hbm, ⟨4, _⟩ => ⟨S512x1, .f32⟩
  | .hbm, ⟨5, _⟩ => ⟨S512x1, .f32⟩
  | .hbm, ⟨6, _⟩ => ⟨S65536x2, .f32⟩
  | .hbm, ⟨7, _⟩ => ⟨S1x65536x2, .f32⟩
  | .hbm, ⟨8, _⟩ => ⟨S512x1x2, .f32⟩
  | .hbm, ⟨9, _⟩ => ⟨S512x65536x2, .f32⟩
  | .hbm, ⟨10, _⟩ => ⟨S512x65536x2, .f32⟩
  | .hbm, ⟨11, _⟩ => ⟨S512x65536x2, .f32⟩
  | .hbm, ⟨12, _⟩ => ⟨S512x1, .f32⟩
  | .hbm, ⟨13, _⟩ => ⟨S512x1, .f32⟩
  | .hbm, ⟨14, _⟩ => ⟨S512x65536x1, .f32⟩
  | .hbm, ⟨15, _⟩ => ⟨S512x65536, .f32⟩
  | .hbm, ⟨16, _⟩ => ⟨S512x65536x1, .f32⟩
  | .hbm, ⟨17, _⟩ => ⟨S512x65536, .f32⟩
  | .hbm, ⟨18, _⟩ => ⟨S512x65536, .f32⟩
  | .hbm, ⟨19, _⟩ => ⟨S512x65536, .f32⟩
  | .hbm, ⟨20, _⟩ => ⟨S512x65536, .f32⟩
  | .hbm, ⟨21, _⟩ => ⟨S_, .f32⟩
  | .hbm, ⟨22, _⟩ => ⟨S512x65536, .f32⟩
  | .hbm, ⟨23, _⟩ => ⟨S512x65536, .f32⟩
  | .hbm, ⟨24, _⟩ => ⟨S512x65536, .f32⟩
  | .hbm, ⟨25, _⟩ => ⟨S512x65536, .f32⟩
  | .hbm, ⟨26, _⟩ => ⟨S512x65536, .f32⟩
  | .hbm, ⟨27, _⟩ => ⟨S512x65536, .f32⟩
  | .hbm, ⟨28, _⟩ => ⟨S512x65536, .f32⟩
  | .hbm, ⟨29, _⟩ => ⟨S512x65536, .f32⟩
  | .hbm, ⟨30, _⟩ => ⟨S512x65536, .f32⟩
  | .hbm, ⟨31, _⟩ => ⟨S512x65536, .f32⟩
  | .hbm, ⟨32, _⟩ => ⟨S_, .f32⟩
  | .hbm, ⟨33, _⟩ => ⟨S512x65536, .f32⟩
  | .hbm, ⟨34, _⟩ => ⟨S512x65536, .f32⟩
  | .hbm, ⟨35, _⟩ => ⟨S512x65536, .f32⟩
  | .hbm, ⟨36, _⟩ => ⟨S512x65536, .f32⟩
  | .hbm, ⟨37, _⟩ => ⟨S512x65536, .f32⟩
  | .hbm, ⟨38, _⟩ => ⟨S512x256x256, .f32⟩
  | .hbm, ⟨39, _⟩ => ⟨S512x256x256, .f32⟩
  | .hbm, ⟨40, _⟩ => ⟨S512x256x256, .f32⟩
  | .hbm, ⟨41, _⟩ => ⟨S_, .f32⟩
  | .hbm, ⟨42, _⟩ => ⟨S_, .f32⟩
  | _, _ => ⟨S256x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  shapeCasts_S256x256x2_S65536x2 : S256x256x2.ShapeCasts S65536x2
  bcast_S65536x2_S1x65536x2_1_2 : S65536x2.BroadcastsInDim S1x65536x2 (![1, 2] : Fin 2 → Fin S1x65536x2.rank)
  bcast_S512x2_S512x1x2_0_2 : S512x2.BroadcastsInDim S512x1x2 (![0, 2] : Fin 2 → Fin S512x1x2.rank)
  bcast_S1x65536x2_S512x65536x2_0_1_2 : S1x65536x2.BroadcastsInDim S512x65536x2 (![0, 1, 2] : Fin 3 → Fin S512x65536x2.rank)
  bcast_S512x1x2_S512x65536x2_0_1_2 : S512x1x2.BroadcastsInDim S512x65536x2 (![0, 1, 2] : Fin 3 → Fin S512x65536x2.rank)
  slices_S512x2_S512x1_0_0 : S512x2.Slices ![0, 0] S512x1
  slices_S512x2_S512x1_0_1 : S512x2.Slices ![0, 1] S512x1
  slices_S512x65536x2_S512x65536x1_0_0_0 : S512x65536x2.Slices ![0, 0, 0] S512x65536x1
  shapeCasts_S512x65536x1_S512x65536 : S512x65536x1.ShapeCasts S512x65536
  slices_S512x65536x2_S512x65536x1_0_0_1 : S512x65536x2.Slices ![0, 0, 1] S512x65536x1
  bcast_S512x1_S512x65536_0_1 : S512x1.BroadcastsInDim S512x65536 (![0, 1] : Fin 2 → Fin S512x65536.rank)
  bcast_S_S512x65536 : S_.BroadcastsInDim S512x65536 (![] : Fin 0 → Fin S512x65536.rank)
  shapeCasts_S512x65536_S512x256x256 : S512x65536.ShapeCasts S512x256x256
  reducesTo_S512x256x256_S_d0_1_2 : S512x256x256.ReducesTo [0, 1, 2] S_
  h_S_ : 0 < S_.numel

variable [Facts₀]

class Facts : Prop extends Facts₀ where

variable [Facts]
-- ==== Proof.PointTotals.lean ====
/-
  What one grid point leaves in the running total and in the result's buffer, case by case.

  The body keeps a running total in a [1, 1] buffer that lives across the grid. At the first point it clears the
  total and then adds the tile's sum to it; at every later point it adds the tile's sum to what the point before left;
  at the last point it also copies the new total into the result's buffer. Each statement reads the stores the run
  found back as values: the total after the point is the point's update of the total before it (zero at the first
  point), and at the last point the result's buffer holds that same new total.
-/
import proofs.«179539_j78932908966357_1_alg».proof.Proof.Gen.KernelIdeal.Frame
import Idealize.ShloMosaic.Lib.Pipeline.Value
import Idealize.ShloMosaic.Lib.Tactic

noncomputable section

namespace Cert.KernelIdeal.Loss

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The first point: the total is cleared, then the tile's sum is added to the cleared total. -/
theorem total_first (c : Dev nD) (i : grid0.Coords) (arg2 : Memref sig .tc .vmem S16x2 .f32) (harg2 : arg2.IsWhole) (arg3 : Memref sig .tc .vmem S16x2 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S16x64x256 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S16x2 .f32) (x1 : Vec F S16x2 .f32) (x2 : Vec F S16x1 .f32) (x3 : Vec F S16x1 .f32) (x4 : Vec F S64x256 .f32) (x5 : Vec F S64x256 .f32) (x6 : Vec F S16x64x256 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay1 (k0_pay4 x1) (k0_pay5 x3) (k0_pay6 x0 x1 x2 x4 x5) (k0_pay7 x0 x5) x6 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1x1) hz]
  simp only [View.readAt_eq_ld, harg2.read_unread, harg3.read_unread, harg4.read_unread, harg5.read_unread, harg6.read_unread,
    harg7.read_unread, harg8.read_unread, harg10.read_unread, View.ld_unit_zero (S := S16x2) hz, View.ld_unit_zero (S := S16x1) hz,
    View.ld_unit_zero (S := S64x256) hz, View.ld_unit_zero (S := S16x64x256) hz3, View.ld_unit_zero (S := S1x1) hz,
    View.readCov_unit_zero (S := S1x1) _ hz]

/-- A middle point: the tile's sum is added to the total `acc` the point before left. -/
theorem total_middle (c : Dev nD) (i : grid0.Coords) (arg2 : Memref sig .tc .vmem S16x2 .f32) (harg2 : arg2.IsWhole) (arg3 : Memref sig .tc .vmem S16x2 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S16x64x256 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S16x2 .f32) (x1 : Vec F S16x2 .f32) (x2 : Vec F S16x1 .f32) (x3 : Vec F S16x1 .f32) (x4 : Vec F S64x256 .f32) (x5 : Vec F S64x256 .f32) (x6 : Vec F S16x64x256 .f32) (acc : Vec F S1x1 .f32) :
    sout0_B_0 c i arg2 harg2 arg3 harg3 arg4 harg4 arg5 harg5 arg6 harg6 arg7 harg7 arg8 harg8 arg9 harg9 arg10 harg10 hc0 hc1 x0 x1 x2 x3 x4 x5 x6 acc = k0_pay1 (k0_pay4 x1) (k0_pay5 x3) (k0_pay6 x0 x1 x2 x4 x5) (k0_pay7 x0 x5) x6 acc := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 acc)]
  unfold kernelRun0_B
  dsimp only
  sl_unfold_words
  rw [View.canon_unit_zero (S := S1x1) hz]
  simp only [View.readAt_eq_ld, harg2.read_unread, harg3.read_unread, harg4.read_unread, harg5.read_unread, harg6.read_unread,
    harg7.read_unread, harg8.read_unread, harg10.read_unread, View.ld_unit_zero (S := S16x2) hz, View.ld_unit_zero (S := S16x1) hz,
    View.ld_unit_zero (S := S64x256) hz, View.ld_unit_zero (S := S16x64x256) hz3, View.ld_unit_zero (S := S1x1) hz,
    View.readCov_unit_zero (S := S1x1) _ hz]

/-- The last point: the same update of the total … -/
theorem total_last (c : Dev nD) (i : grid0.Coords) (arg2 : Memref sig .tc .vmem S16x2 .f32) (harg2 : arg2.IsWhole) (arg3 : Memref sig .tc .vmem S16x2 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S16x64x256 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S16x2 .f32) (x1 : Vec F S16x2 .f32) (x2 : Vec F S16x1 .f32) (x3 : Vec F S16x1 .f32) (x4 : Vec F S64x256 .f32) (x5 : Vec F S64x256 .f32) (x6 : Vec F S16x64x256 .f32) (acc : Vec F S1x1 .f32) :
    sout0_C_0 c i arg2 harg2 arg3 harg3 arg4 harg4 arg5 harg5 arg6 harg6 arg7 harg7 arg8 harg8 arg9 harg9 arg10 harg10 hc0 hc1 x0 x1 x2 x3 x4 x5 x6 acc = k0_pay1 (k0_pay4 x1) (k0_pay5 x3) (k0_pay6 x0 x1 x2 x4 x5) (k0_pay7 x0 x5) x6 acc := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 acc)]
  unfold kernelRun0_C
  dsimp only
  sl_unfold_words
  rw [View.canon_unit_zero (S := S1x1) hz]
  simp only [View.readAt_eq_ld, harg2.read_unread, harg3.read_unread, harg4.read_unread, harg5.read_unread, harg6.read_unread,
    harg7.read_unread, harg8.read_unread, harg10.read_unread, View.ld_unit_zero (S := S16x2) hz, View.ld_unit_zero (S := S16x1) hz,
    View.ld_unit_zero (S := S64x256) hz, View.ld_unit_zero (S := S16x64x256) hz3, View.ld_unit_zero (S := S1x1) hz,
    View.readCov_unit_zero (S := S1x1) _ hz]

/-- … and the result's buffer receives the new total. -/
theorem result_last (c : Dev nD) (i : grid0.Coords) (arg2 : Memref sig .tc .vmem S16x2 .f32) (harg2 : arg2.IsWhole) (arg3 : Memref sig .tc .vmem S16x2 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S16x64x256 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S16x2 .f32) (x1 : Vec F S16x2 .f32) (x2 : Vec F S16x1 .f32) (x3 : Vec F S16x1 .f32) (x4 : Vec F S64x256 .f32) (x5 : Vec F S64x256 .f32) (x6 : Vec F S16x64x256 .f32) (acc : Vec F S1x1 .f32) :
    out0_C_7 c i arg2 harg2 arg3 harg3 arg4 harg4 arg5 harg5 arg6 harg6 arg7 harg7 arg8 harg8 arg9 harg9 arg10 harg10 hc0 hc1 x0 x1 x2 x3 x4 x5 x6 acc = k0_pay1 (k0_pay4 x1) (k0_pay5 x3) (k0_pay6 x0 x1 x2 x4 x5) (k0_pay7 x0 x5) x6 acc := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 acc)]
  unfold kernelRun0_C
  dsimp only
  sl_unfold_words
  rw [View.canon_unit_zero (S := S1x1) hz]
  simp only [View.readAt_eq_ld, harg2.read_unread, harg3.read_unread, harg4.read_unread, harg5.read_unread, harg6.read_unread,
    harg7.read_unread, harg8.read_unread, harg10.read_unread, View.ld_unit_zero (S := S16x2) hz, View.ld_unit_zero (S := S16x1) hz,
    View.ld_unit_zero (S := S64x256) hz, View.ld_unit_zero (S := S16x64x256) hz3, View.ld_unit_zero (S := S1x1) hz,
    View.readCov_unit_zero (S := S1x1) _ hz]

end Cert.KernelIdeal.Loss

end
-- ==== Proof.TileReads.lean ====
/-
  The layout steps of one tile's computation, read at an index. A tile is [16, 64, 256]: 16 fields by a 64 × 256
  patch of pixels. The per-field parameters arrive as columns [16, 1] (or as the two columns of a [16, 2] block),
  are viewed as [16, 1, 1] and broadcast over the patch; the pixel coordinates arrive as a [64, 256] plane, are
  viewed as [1, 64, 256] and broadcast over the fields. Each statement says which ONE entry of the operand an entry
  of the result is.
-/
import Idealize.ShloMosaic.Lib.Pipeline.Value
import Idealize.ShloMosaic.Lib.ValueIdx
import Idealize.ShloMosaic.PureOps.Reduce

namespace Cert.PlaceFields

open Idealize.ShloMosaic Idealize.ShloMosaic.ValueIdx

variable {α : Type}

/-- Column 0 of a [16, 2] block, as a [16, 1] column: entry `n` is the block's `(n, 0)`. -/
theorem col0_apply (v : (⟨2, ![16, 2]⟩ : Shape).Idx → α) (hs : (⟨2, ![16, 2]⟩ : Shape).Slices ![0, 0] ⟨2, ![16, 1]⟩) (n : Fin 16) :
    extractStridedSlice ⟨2, ![16, 1]⟩ ![0, 0] v hs (ix2 n 0) = v (ix2 n 0) :=
  extractStridedSlice_apply _ v hs _ _ fun a => by
    match a with
    | ⟨0, _⟩ => show n.val = 0 + n.val; omega
    | ⟨1, _⟩ => rfl

/-- Column 1 of a [16, 2] block, as a [16, 1] column: entry `n` is the block's `(n, 1)`. -/
theorem col1_apply (v : (⟨2, ![16, 2]⟩ : Shape).Idx → α) (hs : (⟨2, ![16, 2]⟩ : Shape).Slices ![0, 1] ⟨2, ![16, 1]⟩) (n : Fin 16) :
    extractStridedSlice ⟨2, ![16, 1]⟩ ![0, 1] v hs (ix2 n 0) = v (ix2 n 1) :=
  extractStridedSlice_apply _ v hs _ _ fun a => by
    match a with
    | ⟨0, _⟩ => show n.val = 0 + n.val; omega
    | ⟨1, _⟩ => rfl

/-- A [16, 1] column viewed as [16, 1, 1]: the same entries. -/
theorem column_cast_apply (v : (⟨2, ![16, 1]⟩ : Shape).Idx → α) (hc : (⟨2, ![16, 1]⟩ : Shape).ShapeCasts ⟨3, ![16, 1, 1]⟩) (n : Fin 16) :
    shapeCast ⟨3, ![16, 1, 1]⟩ v hc (ix3 n 0 0) = v (ix2 n 0) :=
  shapeCast_apply v hc _ _ (by rw [Shape.rowMajor_val_two, Shape.rowMajor_val_three]; show n.val * 1 + 0 = (n.val * 1 + 0) * 1 + 0; omega)

/-- A [64, 256] plane viewed as [1, 64, 256]: the same entries. -/
theorem plane_cast_apply (v : (⟨2, ![64, 256]⟩ : Shape).Idx → α) (hc : (⟨2, ![64, 256]⟩ : Shape).ShapeCasts ⟨3, ![1, 64, 256]⟩)
    (h : Fin 64) (w : Fin 256) : shapeCast ⟨3, ![1, 64, 256]⟩ v hc (ix3 0 h w) = v (ix2 h w) :=
  shapeCast_apply v hc _ _ (by rw [Shape.rowMajor_val_two, Shape.rowMajor_val_three]; show h.val * 256 + w.val = (0 * 64 + h.val) * 256 + w.val; omega)

/-- The plane broadcast over the 16 fields: field `n` sees the plane. -/
theorem plane_bcast_apply (v : (⟨3, ![1, 64, 256]⟩ : Shape).Idx → α) (hb : (⟨3, ![1, 64, 256]⟩ : Shape).Broadcasts ⟨3, ![16, 64, 256]⟩)
    (n : Fin 16) (h : Fin 64) (w : Fin 256) : broadcastTo ⟨3, ![16, 64, 256]⟩ v hb (ix3 n h w) = v (ix3 0 h w) :=
  broadcastTo_apply v hb _ _ fun a => by
    match a with
    | ⟨0, _⟩ => rfl
    | ⟨1, _⟩ => rfl
    | ⟨2, _⟩ => rfl

/-- A per-field column broadcast over the patch: every pixel sees field `n`'s entry. -/
theorem column_bcast_apply (v : (⟨3, ![16, 1, 1]⟩ : Shape).Idx → α) (hb : (⟨3, ![16, 1, 1]⟩ : Shape).Broadcasts ⟨3, ![16, 64, 256]⟩)
    (n : Fin 16) (h : Fin 64) (w : Fin 256) : broadcastTo ⟨3, ![16, 64, 256]⟩ v hb (ix3 n h w) = v (ix3 n 0 0) :=
  broadcastTo_apply v hb _ _ fun a => by
    match a with
    | ⟨0, _⟩ => rfl
    | ⟨1, _⟩ => rfl
    | ⟨2, _⟩ => rfl

/-- The 16 per-field sums viewed as a [1, 16] row: the same entries. -/
theorem row_cast_apply (v : (⟨1, ![16]⟩ : Shape).Idx → α) (hc : (⟨1, ![16]⟩ : Shape).ShapeCasts ⟨2, ![1, 16]⟩) (n : Fin 16) :
    shapeCast ⟨2, ![1, 16]⟩ v hc (ix2 0 n) = v (ix1 n) :=
  shapeCast_apply v hc _ _ (by rw [Shape.rowMajor_val_one, Shape.rowMajor_val_two]; show n.val = 0 * 16 + n.val; omega)

/-- The one total viewed as [1, 1]: the same entry. -/
theorem unit_cast_apply (v : (⟨1, ![1]⟩ : Shape).Idx → α) (hc : (⟨1, ![1]⟩ : Shape).ShapeCasts ⟨2, ![1, 1]⟩) :
    shapeCast ⟨2, ![1, 1]⟩ v hc (ix2 0 0) = v (ix1 0) :=
  shapeCast_apply v hc _ _ (by rw [Shape.rowMajor_val_one, Shape.rowMajor_val_two]; rfl)

/-- Summing the tile over its lanes: the index that drops to `(n, h)` with lane `w` put back is `(n, h, w)`. -/
theorem lift_lane (hr : (⟨3, ![16, 64, 256]⟩ : Shape).Reduces [2] ⟨2, ![16, 64]⟩) (n : Fin 16) (h : Fin 64) (w : Fin 256) :
    hr.lift (ix2 n h) w = ix3 n h w := by
  funext a
  match a with
  | ⟨0, _⟩ => rfl
  | ⟨1, _⟩ => rfl
  | ⟨2, _⟩ => rfl

/-- Summing over the lines: the index that drops to `n` with line `h` put back is `(n, h)`. -/
theorem lift_line (hr : (⟨2, ![16, 64]⟩ : Shape).Reduces [1] ⟨1, ![16]⟩) (n : Fin 16) (h : Fin 64) :
    hr.lift (ix1 n) h = ix2 n h := by
  funext a
  match a with
  | ⟨0, _⟩ => rfl
  | ⟨1, _⟩ => rfl

/-- Summing over the fields of the [1, 16] row: the index that drops to `0` with field `n` put back is `(0, n)`. -/
theorem lift_field (hr : (⟨2, ![1, 16]⟩ : Shape).Reduces [1] ⟨1, ![1]⟩) (n : Fin 16) :
    hr.lift (ix1 0) n = ix2 0 n := by
  funext a
  match a with
  | ⟨0, _⟩ => rfl
  | ⟨1, _⟩ => rfl

/-- A [1, 1] array has one index. -/
theorem idx11_eq (y : (⟨2, ![1, 1]⟩ : Shape).Idx) : y = ix2 0 0 := by
  funext a
  match a with
  | ⟨0, _⟩ => exact Subsingleton.elim (α := Fin 1) _ _
  | ⟨1, _⟩ => exact Subsingleton.elim (α := Fin 1) _ _

end Cert.PlaceFields
-- ==== Proof.TileSums.lean ====
/-
  Sums over index sets, rearranged. Nothing here mentions a program: the statements are about finite sums in a
  commutative monoid (the extended reals with their addition are one), so no finiteness of the summands is used.

  * a sum over the indices of a rank-3 array is the triple sum over its coordinates;
  * a sum over `Fin (a * b)` is the double sum over a quotient `i : Fin a` and a remainder `j : Fin b`, at `b * i + j`;
  * the sum over a [512, 256, 256] array, cut into 32 × 4 tiles of [16, 64, 256] visited in row-major order
    (tile `t` holds rows `16 * (t / 4) ..` and lines `64 * (t % 4) ..`), is the sum over the tiles of each tile's sum.
-/
import Idealize.ShloMosaic.Lib.ValueIdx
import Mathlib.Algebra.BigOperators.Fin
import Mathlib.Logic.Equiv.Fin.Basic

open scoped BigOperators

namespace Cert.PlaceFields

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A quotient `i < a` and a remainder `j < b` name a number below `a * b`. -/
theorem split_lt {a b c : Nat} (hc : a * b = c) (i : Fin a) (j : Fin b) : b * i.val + j.val < c := by
  have hi : i.val + 1 ≤ a := i.isLt
  have h := Nat.mul_le_mul_left b hi
  have hj := j.isLt
  rw [Nat.mul_succ] at h
  rw [← hc, Nat.mul_comm a b]
  omega

/-- A sum over `Fin c`, `c = a * b`, by quotient and remainder. -/
theorem sum_split {a b c : Nat} (hc : a * b = c) (G : Fin c → M) :
    ∑ N : Fin c, G N = ∑ i : Fin a, ∑ j : Fin b, G ⟨b * i.val + j.val, split_lt hc i j⟩ := by
  subst hc
  rw [← Equiv.sum_comp finProdFinEquiv G, Fintype.sum_prod_type]
  refine Finset.sum_congr rfl fun i _ => Finset.sum_congr rfl fun j _ => congrArg G (Fin.ext ?_)
  show j.val + b * i.val = b * i.val + j.val
  omega

/-- The row of the [512, …] array that row `n` of tile `t` is: tile `t` sits at tile row `t / 4`. (Total in `t`:
    the quotient is taken modulo 32, which changes nothing below 128.) -/
def tileRow (t : Nat) (n : Fin 16) : Fin 512 := ⟨16 * (t / 4 % 32) + n.val, by have := n.isLt; have := Nat.mod_lt (t / 4) (by decide : 0 < 32); omega⟩

/-- The line of the [·, 256, ·] array that line `h` of tile `t` is: tile `t` sits at tile column `t % 4`. -/
def tileLine (t : Nat) (h : Fin 64) : Fin 256 := ⟨64 * (t % 4) + h.val, by have := h.isLt; have := Nat.mod_lt t (by decide : 0 < 4); omega⟩

/-- One tile's sum. -/
def tileSum (f : Fin 512 → Fin 256 → Fin 256 → M) (t : Nat) : M :=
  ∑ n : Fin 16, ∑ h : Fin 64, ∑ w : Fin 256, f (tileRow t n) (tileLine t h) w

/-- The tiles partition the array: the sum of the 128 tile sums is the sum over the whole array. -/
theorem sum_tiles (f : Fin 512 → Fin 256 → Fin 256 → M) :
    ∑ t : Fin 128, tileSum f t.val = ∑ N : Fin 512, ∑ H : Fin 256, ∑ w : Fin 256, f N H w := by
  rw [sum_split (a := 32) (b := 4) (by decide) (fun t : Fin 128 => tileSum f t.val),
    sum_split (a := 32) (b := 16) (by decide) (fun N : Fin 512 => ∑ H : Fin 256, ∑ w : Fin 256, f N H w)]
  refine Finset.sum_congr rfl fun ni _ => ?_
  unfold tileSum
  rw [Finset.sum_comm]
  refine Finset.sum_congr rfl fun n _ => ?_
  rw [sum_split (a := 4) (b := 64) (by decide) (fun H : Fin 256 => ∑ w : Fin 256, f ⟨16 * ni.val + n.val, split_lt (by decide) ni n⟩ H w)]
  refine Finset.sum_congr rfl fun hi _ => Finset.sum_congr rfl fun h _ => Finset.sum_congr rfl fun w _ => ?_
  have hni := ni.isLt
  have hhi := hi.isLt
  congr 1
  · exact Fin.ext (by show 16 * ((4 * ni.val + hi.val) / 4 % 32) + n.val = 16 * ni.val + n.val; omega)
  · exact Fin.ext (by show 64 * ((4 * ni.val + hi.val) % 4) + h.val = 64 * hi.val + h.val; omega)

end Cert.PlaceFields
-- ==== Proof.SquaredError.lean ====
/-
  What both programs compute, as one function of the argument arrays over the extended reals.

  A place field `n` is a Gaussian bump with centre `(mx, my)`, symmetric inverse covariance `[[a, b], [b, c]]` and
  height `s`. At a pixel with coordinates `(x, y)` it predicts `s * exp (-1/2 * q)`, where `q` is the quadratic form
  `dx * dx * a + 2 * dx * dy * b + dy * dy * c` of the offset `(dx, dy) = (x - mx, y - my)`; the loss is the sum, over
  all 512 fields and all 256 × 256 pixels, of the squared difference between the prediction and the recorded value.
  The products and sums are written in the order and grouping both programs use, so that each program's term at a
  pixel IS this one: nothing is re-associated inside a pixel. The two constants are kept as the bit patterns both
  programs carry (`2.0` and `-0.5`): the same word on both sides, never evaluated.
-/
import Idealize.ShloMosaic.PureOps.Ideal
import Idealize.ShloMosaic.Lib.ValueIdx
import proofs.«179539_j78932908966357_1_alg».proof.Proof.TileSums

open scoped BigOperators

noncomputable section

namespace Cert.PlaceFields

open Idealize.ShloMosaic Idealize.ShloMosaic.ValueIdx

/-- The quadratic form of the offset from the centre, in the inverse covariance. -/
def quadForm (x y mx my a b c : EReal) : EReal :=
  (x - mx) * (x - mx) * a + Ideal.ofBits .f32 0x40000000#32 * (x - mx) * (y - my) * b + (y - my) * (y - my) * c

/-- The field's prediction at the pixel. -/
def predicted (x y mx my a b c s : EReal) : EReal :=
  s * Ideal.exp (Ideal.ofBits .f32 0xBF000000#32 * quadForm x y mx my a b c)

/-- The squared error at the pixel against the recorded value `r`. -/
def sqErr (x y mx my a b c s r : EReal) : EReal :=
  (predicted x y mx my a b c s - r) * (predicted x y mx my a b c s - r)

/-- The squared error of field `n` at pixel `(h, w)`, from the argument arrays: the pixel's coordinates are the two
    entries of `coords` at `(h, w)`, the centre the two entries of `means` at `n`, the diagonal of the inverse
    covariance the two entries of `covDiag` at `n`, its off-diagonal entry and the height the single entries of `covOff`
    and `scales` at `n`. -/
def pixelErr (coords : (⟨3, ![256, 256, 2]⟩ : Shape).Idx → EReal) (real : (⟨3, ![512, 256, 256]⟩ : Shape).Idx → EReal)
    (means covDiag : (⟨2, ![512, 2]⟩ : Shape).Idx → EReal) (covOff scales : (⟨2, ![512, 1]⟩ : Shape).Idx → EReal)
    (n : Fin 512) (h w : Fin 256) : EReal :=
  sqErr (coords (ix3 h w 0)) (coords (ix3 h w 1)) (means (ix2 n 0)) (means (ix2 n 1))
    (covDiag (ix2 n 0)) (covOff (ix2 n 0)) (covDiag (ix2 n 1)) (scales (ix2 n 0)) (real (ix3 n h w))

/-- The loss: the sum over every field and every pixel. -/
def totalErr (coords : (⟨3, ![256, 256, 2]⟩ : Shape).Idx → EReal) (real : (⟨3, ![512, 256, 256]⟩ : Shape).Idx → EReal)
    (means covDiag : (⟨2, ![512, 2]⟩ : Shape).Idx → EReal) (covOff scales : (⟨2, ![512, 1]⟩ : Shape).Idx → EReal) : EReal :=
  ∑ n : Fin 512, ∑ h : Fin 256, ∑ w : Fin 256, pixelErr coords real means covDiag covOff scales n h w

/-- The loss is the sum of the 128 tiles' sums, whatever the order the tiles are added in. -/
theorem totalErr_eq_tiles (coords : (⟨3, ![256, 256, 2]⟩ : Shape).Idx → EReal) (real : (⟨3, ![512, 256, 256]⟩ : Shape).Idx → EReal)
    (means covDiag : (⟨2, ![512, 2]⟩ : Shape).Idx → EReal) (covOff scales : (⟨2, ![512, 1]⟩ : Shape).Idx → EReal) :
    totalErr coords real means covDiag covOff scales
      = ∑ t ∈ Finset.range 128, tileSum (pixelErr coords real means covDiag covOff scales) t := by
  rw [Finset.sum_range, sum_tiles]
  rfl

end Cert.PlaceFields

end
-- ==== Proof.TileBody.lean ====
/-
  One grid point's arithmetic, at the extended reals. The body reads seven blocks — the centres [16, 2], the inverse
  covariance's diagonal [16, 2], its off-diagonal [16, 1], the heights [16, 1], the two coordinate planes [64, 256] of
  the patch, the recorded values [16, 64, 256] — and the running total [1, 1], and writes the running total back
  increased by the tile's sum of squared errors: summed over the lanes, then the lines, then the fields, each sum
  started from zero. Entry by entry the squared error is `sqErr` of the blocks' entries; the three sums in a row are
  the triple sum over the tile.
-/
import proofs.«179539_j78932908966357_1_alg».proof.Proof.Gen.KernelIdeal.Skeleton
import proofs.«179539_j78932908966357_1_alg».proof.Proof.TileReads
import proofs.«179539_j78932908966357_1_alg».proof.Proof.SquaredError
import Idealize.ShloMosaic.PureOps.Ideal.Laws

open scoped BigOperators

noncomputable section

namespace Cert.KernelIdeal.Tile

open Cert.KernelIdeal Cert.KernelIdeal.Gen Idealize.ShloMosaic Idealize.ShloMosaic.TcCoe Idealize.ShloMosaic.ValueIdx
open Cert.PlaceFields

variable (ctr cov : Vec Ideal S16x2 .f32) (off hgt : Vec Ideal S16x1 .f32) (px py : Vec Ideal S64x256 .f32)
  (rec : Vec Ideal S16x64x256 .f32)

/-- The exponential of a tile, entry by entry. -/
theorem exp_apply {s : Shape} (v : FVec Ideal s .f32) (i : s.Idx) : exp v i = Ideal.exp (v i) := rfl

/-- The vertical offset of pixel `(h, w)` of the patch from field `n`'s centre. -/
theorem dy_apply (n : Fin 16) (h : Fin 64) (w : Fin 256) :
    k0_pay3 ctr py (ix3 n h w) = py (ix2 h w) - ctr (ix2 n 1) := by
  unfold k0_pay3
  simp only [subf_apply, plane_bcast_apply, plane_cast_apply, shapeCast_self, column_bcast_apply, column_cast_apply, col1_apply]

/-- Its square. -/
theorem dy_sq_apply (n : Fin 16) (h : Fin 64) (w : Fin 256) :
    k0_pay7 ctr py (ix3 n h w) = (py (ix2 h w) - ctr (ix2 n 1)) * (py (ix2 h w) - ctr (ix2 n 1)) := by
  unfold k0_pay7
  simp only [mulf_apply, dy_apply]

/-- The first two terms of the quadratic form. -/
theorem quad_head_apply (n : Fin 16) (h : Fin 64) (w : Fin 256) :
    k0_pay6 ctr cov off px py (ix3 n h w)
      = (px (ix2 h w) - ctr (ix2 n 0)) * (px (ix2 h w) - ctr (ix2 n 0)) * cov (ix2 n 0)
        + Ideal.ofBits .f32 0x40000000#32 * (px (ix2 h w) - ctr (ix2 n 0)) * (py (ix2 h w) - ctr (ix2 n 1)) * off (ix2 n 0) := by
  unfold k0_pay6
  simp only [addf_apply, mulf_apply, subf_apply, broadcast_apply, dy_apply, plane_bcast_apply, plane_cast_apply, shapeCast_self,
    column_bcast_apply, column_cast_apply, col0_apply]
  rfl

/-- The last diagonal entry of the inverse covariance, as the [16, 1, 1] column the body carries. -/
theorem cov_c_apply (n : Fin 16) : k0_pay4 cov (ix3 n 0 0) = cov (ix2 n 1) := by
  unfold k0_pay4
  simp only [column_cast_apply, col1_apply]

/-- The height, likewise. -/
theorem height_apply (n : Fin 16) : k0_pay5 hgt (ix3 n 0 0) = hgt (ix2 n 0) := by
  unfold k0_pay5
  simp only [column_cast_apply]

/-- The sum of a [16, 64, 256] tile over its lanes, then its lines, then its fields, each from zero, viewed as [1, 1]
    and read at its one entry: the triple sum. -/
theorem tile_total (v : FVec Ideal S16x64x256 .f32)
    (h2 : S16x64x256.Reduces [2] S16x64) (h1 : S16x64.Reduces [1] S16) (hc : S16.ShapeCasts S1x16) (h0 : S1x16.Reduces [1] S1)
    (hu : S1.ShapeCasts S1x1) (hp : ∀ a, (![0, 0] : Fin 2 → Nat) a < S1x1.size a)
    (hφ : FKind.Formats .f32) (hacc : (0x00000000#32 : BitVec 32) = FKind.add.neutral .f32 hφ) :
    extractAt ![0, 0] (shapeCast S1x1 (multiReduction .add [1] S1 (shapeCast S1x16
        (multiReduction .add [1] S16 (multiReduction .add [2] S16x64 v 0x00000000#32 h2 hφ hacc) 0x00000000#32 h1 hφ hacc) hc)
        0x00000000#32 h0 hφ hacc) hu) hp
      = ∑ n : Fin 16, ∑ h : Fin 64, ∑ w : Fin 256, v (ix3 n h w) := by
  show shapeCast S1x1 _ hu (ix2 0 0) = _
  rw [unit_cast_apply]
  refine (Ideal.multiReduction_add_single _ 0x00000000#32 h0 hφ hacc (ix1 0)).trans ?_
  show ∑ n : Fin 16, _ = _
  refine Finset.sum_congr rfl fun n _ => ?_
  rw [lift_field, row_cast_apply]
  refine (Ideal.multiReduction_add_single _ 0x00000000#32 h1 hφ hacc (ix1 n)).trans ?_
  show ∑ h : Fin 64, _ = _
  refine Finset.sum_congr rfl fun h _ => ?_
  rw [lift_line]
  refine (Ideal.multiReduction_add_single _ 0x00000000#32 h2 hφ hacc (ix2 n h)).trans ?_
  show ∑ w : Fin 256, _ = _
  refine Finset.sum_congr rfl fun w _ => ?_
  rw [lift_lane]

/-- What the point stores back into the running total `acc`: `acc` plus the tile's sum of squared errors. -/
theorem update_eq (acc : Vec Ideal S1x1 .f32) :
    k0_pay1 (k0_pay4 cov) (k0_pay5 hgt) (k0_pay6 ctr cov off px py) (k0_pay7 ctr py) rec acc
      = fun _ => acc (ix2 0 0) + ∑ n : Fin 16, ∑ h : Fin 64, ∑ w : Fin 256,
          sqErr (px (ix2 h w)) (py (ix2 h w)) (ctr (ix2 n 0)) (ctr (ix2 n 1)) (cov (ix2 n 0)) (off (ix2 n 0)) (cov (ix2 n 1))
            (hgt (ix2 n 0)) (rec (ix3 n h w)) := by
  funext y
  unfold k0_pay1
  rw [shapeCast_self, addf_apply, broadcast_apply, idx11_eq y]
  refine congrArg (acc (ix2 0 0) + ·) ?_
  refine (tile_total _ _ _ _ _ _ _ _ _).trans ?_
  refine Finset.sum_congr rfl fun n _ => Finset.sum_congr rfl fun h _ => Finset.sum_congr rfl fun w _ => ?_
  simp only [mulf_apply, subf_apply, addf_apply, exp_apply, broadcast_apply, column_bcast_apply, cov_c_apply, height_apply,
    quad_head_apply, dy_sq_apply]
  rfl

end Cert.KernelIdeal.Tile

end
-- ==== Proof.TileBlocks.lean ====
/-
  What each grid point reads, and what it adds to the running total.

  The grid has 128 points, visited in order; point `t` works on tile `t`: fields `16 * (t / 4) ..`, lines
  `64 * (t % 4) ..`, all 256 lanes. Its blocks are read off the arrays the region finds: the four per-field parameter
  arrays and the recorded values are arguments; the two coordinate planes were made just before the region, each the
  slice of one of the two last-axis entries of `coords`, viewed as a [256, 256] plane. So the tile's sum of squared
  errors (one point's update of the running total) is `tileSum` of `pixelErr` of the argument arrays at `t`.
-/
import proofs.«179539_j78932908966357_1_alg».proof.Proof.PointTotals
import proofs.«179539_j78932908966357_1_alg».proof.Proof.TileBody
import Idealize.ShloMosaic.Lib.StableHlo.Run

open scoped BigOperators

noncomputable section

namespace Cert.KernelIdeal.Loss

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)
open Cert.PlaceFields

variable (m : (ℓ : Loc nD τ sig) → Buf (Elt Ideal) ℓ) (ρ : Dev nD → PrngReg)

/-! ### Which block of each array a point reads -/

theorem nPoints : cfg0.N = 128 := N_0

/-- The per-field parameter blocks are indexed by the tile row, the coordinate planes' by the tile column, the
    recorded values' by both. -/
theorem blockIdx_fields2 : ∀ t : Fin cfg0.N, (win0_0.index t 0 = t.val / 4 ∧ win0_0.index t 1 = 0)
    ∧ (win0_1.index t 0 = t.val / 4 ∧ win0_1.index t 1 = 0) :=
  (by decide +kernel : ∀ t : Fin grid0.N, (win0_0.index t 0 = t.val / 4 ∧ win0_0.index t 1 = 0)
    ∧ (win0_1.index t 0 = t.val / 4 ∧ win0_1.index t 1 = 0))
theorem blockIdx_fields1 : ∀ t : Fin cfg0.N, (win0_2.index t 0 = t.val / 4 ∧ win0_2.index t 1 = 0)
    ∧ (win0_3.index t 0 = t.val / 4 ∧ win0_3.index t 1 = 0) :=
  (by decide +kernel : ∀ t : Fin grid0.N, (win0_2.index t 0 = t.val / 4 ∧ win0_2.index t 1 = 0)
    ∧ (win0_3.index t 0 = t.val / 4 ∧ win0_3.index t 1 = 0))
theorem blockIdx_planes : ∀ t : Fin cfg0.N, (win0_4.index t 0 = t.val % 4 ∧ win0_4.index t 1 = 0)
    ∧ (win0_5.index t 0 = t.val % 4 ∧ win0_5.index t 1 = 0) :=
  (by decide +kernel : ∀ t : Fin grid0.N, (win0_4.index t 0 = t.val % 4 ∧ win0_4.index t 1 = 0)
    ∧ (win0_5.index t 0 = t.val % 4 ∧ win0_5.index t 1 = 0))
theorem blockIdx_rec : ∀ t : Fin cfg0.N, win0_6.index t 0 = t.val / 4 ∧ win0_6.index t 1 = t.val % 4 ∧ win0_6.index t 2 = 0 :=
  (by decide +kernel : ∀ t : Fin grid0.N, win0_6.index t 0 = t.val / 4 ∧ win0_6.index t 1 = t.val % 4 ∧ win0_6.index t 2 = 0)

/-! ### The blocks, under their literal types -/

abbrev ctrBlk (c : Dev nD) (t : Fin cfg0.N) : Vec Ideal S16x2 .f32 := iblk m c 0 t
abbrev covBlk (c : Dev nD) (t : Fin cfg0.N) : Vec Ideal S16x2 .f32 := iblk m c 1 t
abbrev offBlk (c : Dev nD) (t : Fin cfg0.N) : Vec Ideal S16x1 .f32 := iblk m c 2 t
abbrev hgtBlk (c : Dev nD) (t : Fin cfg0.N) : Vec Ideal S16x1 .f32 := iblk m c 3 t
abbrev pxBlk (c : Dev nD) (t : Fin cfg0.N) : Vec Ideal S64x256 .f32 := iblk m c 4 t
abbrev pyBlk (c : Dev nD) (t : Fin cfg0.N) : Vec Ideal S64x256 .f32 := iblk m c 5 t
abbrev recBlk (c : Dev nD) (t : Fin cfg0.N) : Vec Ideal S16x64x256 .f32 := iblk m c 6 t

/-- The argument arrays, as the specification takes them. -/
abbrev coordsArr (c : Dev nD) : (⟨3, ![256, 256, 2]⟩ : Shape).Idx → EReal := m ((c.tc : Thread nD τ).loc main_arg0)
abbrev realArr (c : Dev nD) : (⟨3, ![512, 256, 256]⟩ : Shape).Idx → EReal := m ((c.tc : Thread nD τ).loc main_arg1)
abbrev meansArr (c : Dev nD) : (⟨2, ![512, 2]⟩ : Shape).Idx → EReal := m ((c.tc : Thread nD τ).loc main_arg2)
abbrev covDiagArr (c : Dev nD) : (⟨2, ![512, 2]⟩ : Shape).Idx → EReal := m ((c.tc : Thread nD τ).loc main_arg3)
abbrev covOffArr (c : Dev nD) : (⟨2, ![512, 1]⟩ : Shape).Idx → EReal := m ((c.tc : Thread nD τ).loc main_arg4)
abbrev scalesArr (c : Dev nD) : (⟨2, ![512, 1]⟩ : Shape).Idx → EReal := m ((c.tc : Thread nD τ).loc main_arg5)

/-- The squared error at a field and a pixel, of this memory's argument arrays. -/
abbrev pix (c : Dev nD) : Fin 512 → Fin 256 → Fin 256 → EReal :=
  pixelErr (coordsArr m c) (realArr m c) (meansArr m c) (covDiagArr m c) (covOffArr m c) (scalesArr m c)

/-! ### The blocks' entries are the arrays' -/

theorem ctrBlk_apply (c : Dev nD) (t : Fin cfg0.N) (n : Fin 16) (k : Fin 2) :
    ctrBlk m c t (ix2 n k) = meansArr m c (ix2 (tileRow t.val n) k) := by
  have hN : t.val < 128 := lt_of_lt_of_eq t.isLt nPoints
  show iblk m c 0 t (ix2 n k) = _
  unfold iblk
  rw [View.read_apply]
  show V m c main_arg2 _ = m ((c.tc : Thread nD τ).loc main_arg2) _
  rw [V_main_arg2]
  congr 1
  funext a
  apply Fin.ext
  match a with
  | ⟨0, _⟩ => show win0_0.index t 0 * 16 + 1 * n.val = 16 * (t.val / 4 % 32) + n.val; rw [(blockIdx_fields2 t).1.1]; omega
  | ⟨1, _⟩ => show win0_0.index t 1 * 2 + 1 * k.val = k.val; rw [(blockIdx_fields2 t).1.2]; omega

theorem covBlk_apply (c : Dev nD) (t : Fin cfg0.N) (n : Fin 16) (k : Fin 2) :
    covBlk m c t (ix2 n k) = covDiagArr m c (ix2 (tileRow t.val n) k) := by
  have hN : t.val < 128 := lt_of_lt_of_eq t.isLt nPoints
  show iblk m c 1 t (ix2 n k) = _
  unfold iblk
  rw [View.read_apply]
  show V m c main_arg3 _ = m ((c.tc : Thread nD τ).loc main_arg3) _
  rw [V_main_arg3]
  congr 1
  funext a
  apply Fin.ext
  match a with
  | ⟨0, _⟩ => show win0_1.index t 0 * 16 + 1 * n.val = 16 * (t.val / 4 % 32) + n.val; rw [(blockIdx_fields2 t).2.1]; omega
  | ⟨1, _⟩ => show win0_1.index t 1 * 2 + 1 * k.val = k.val; rw [(blockIdx_fields2 t).2.2]; omega

theorem offBlk_apply (c : Dev nD) (t : Fin cfg0.N) (n : Fin 16) :
    offBlk m c t (ix2 n 0) = covOffArr m c (ix2 (tileRow t.val n) 0) := by
  have hN : t.val < 128 := lt_of_lt_of_eq t.isLt nPoints
  show iblk m c 2 t (ix2 n 0) = _
  unfold iblk
  rw [View.read_apply]
  show V m c main_arg4 _ = m ((c.tc : Thread nD τ).loc main_arg4) _
  rw [V_main_arg4]
  congr 1
  funext a
  apply Fin.ext
  match a with
  | ⟨0, _⟩ => show win0_2.index t 0 * 16 + 1 * n.val = 16 * (t.val / 4 % 32) + n.val; rw [(blockIdx_fields1 t).1.1]; omega
  | ⟨1, _⟩ => show win0_2.index t 1 * 1 + 1 * 0 = 0; rw [(blockIdx_fields1 t).1.2]

theorem hgtBlk_apply (c : Dev nD) (t : Fin cfg0.N) (n : Fin 16) :
    hgtBlk m c t (ix2 n 0) = scalesArr m c (ix2 (tileRow t.val n) 0) := by
  have hN : t.val < 128 := lt_of_lt_of_eq t.isLt nPoints
  show iblk m c 3 t (ix2 n 0) = _
  unfold iblk
  rw [View.read_apply]
  show V m c main_arg5 _ = m ((c.tc : Thread nD τ).loc main_arg5) _
  rw [V_main_arg5]
  congr 1
  funext a
  apply Fin.ext
  match a with
  | ⟨0, _⟩ => show win0_3.index t 0 * 16 + 1 * n.val = 16 * (t.val / 4 % 32) + n.val; rw [(blockIdx_fields1 t).2.1]; omega
  | ⟨1, _⟩ => show win0_3.index t 1 * 1 + 1 * 0 = 0; rw [(blockIdx_fields1 t).2.2]

theorem recBlk_apply (c : Dev nD) (t : Fin cfg0.N) (n : Fin 16) (h : Fin 64) (w : Fin 256) :
    recBlk m c t (ix3 n h w) = realArr m c (ix3 (tileRow t.val n) (tileLine t.val h) w) := by
  have hN : t.val < 128 := lt_of_lt_of_eq t.isLt nPoints
  show iblk m c 6 t (ix3 n h w) = _
  unfold iblk
  rw [View.read_apply]
  show V m c main_arg1 _ = m ((c.tc : Thread nD τ).loc main_arg1) _
  rw [V_main_arg1]
  congr 1
  funext a
  apply Fin.ext
  match a with
  | ⟨0, _⟩ => show win0_6.index t 0 * 16 + 1 * n.val = 16 * (t.val / 4 % 32) + n.val; rw [(blockIdx_rec t).1]; omega
  | ⟨1, _⟩ => show win0_6.index t 1 * 64 + 1 * h.val = 64 * (t.val % 4) + h.val; rw [(blockIdx_rec t).2.1]; omega
  | ⟨2, _⟩ => show win0_6.index t 2 * 256 + 1 * w.val = w.val; rw [(blockIdx_rec t).2.2]; omega

/-- The horizontal-coordinate plane the region finds: entry 0 of `coords`' last axis, as a [256, 256] plane. -/
theorem planeX_apply (c : Dev nD) (H W : Fin 256) : V m c main_v1 (ix2 H W) = coordsArr m c (ix3 H W 0) := by
  have e : (V m c main_v1 : S256x256.Idx → EReal)
      = shapeCast S256x256 (extractStridedSlice S256x256x1 ![0, 0, 0] (m ((c.tc : Thread nD τ).loc main_arg0)) slices_S256x256x2_S256x256x1_0_0_0)
          shapeCasts_S256x256x1_S256x256 := by
    show StableHlo.after hostOps0 (fun b => m (c, b)) (Proc.devRef .tc main_v1) = _
    after_results
    rfl
  rw [e]
  refine (shapeCast_apply _ _ (ix2 H W) (ix3 H W 0) (by
    rw [Shape.rowMajor_val_three, Shape.rowMajor_val_two]; show (H.val * 256 + W.val) * 1 + 0 = H.val * 256 + W.val; omega)).trans ?_
  exact extractStridedSlice_apply _ _ _ (ix3 H W 0) (ix3 H W 0) fun a => by
    match a with
    | ⟨0, _⟩ => show H.val = 0 + H.val; omega
    | ⟨1, _⟩ => show W.val = 0 + W.val; omega
    | ⟨2, _⟩ => rfl

/-- The vertical-coordinate plane: entry 1. -/
theorem planeY_apply (c : Dev nD) (H W : Fin 256) : V m c main_v3 (ix2 H W) = coordsArr m c (ix3 H W 1) := by
  have e : (V m c main_v3 : S256x256.Idx → EReal)
      = shapeCast S256x256 (extractStridedSlice S256x256x1 ![0, 0, 1] (m ((c.tc : Thread nD τ).loc main_arg0)) slices_S256x256x2_S256x256x1_0_0_1)
          shapeCasts_S256x256x1_S256x256 := by
    show StableHlo.after hostOps0 (fun b => m (c, b)) (Proc.devRef .tc main_v3) = _
    after_results
    rfl
  rw [e]
  refine (shapeCast_apply _ _ (ix2 H W) (ix3 H W 0) (by
    rw [Shape.rowMajor_val_three, Shape.rowMajor_val_two]; show (H.val * 256 + W.val) * 1 + 0 = H.val * 256 + W.val; omega)).trans ?_
  exact extractStridedSlice_apply _ _ _ (ix3 H W 0) (ix3 H W 1) fun a => by
    match a with
    | ⟨0, _⟩ => show H.val = 0 + H.val; omega
    | ⟨1, _⟩ => show W.val = 0 + W.val; omega
    | ⟨2, _⟩ => rfl

theorem pxBlk_apply (c : Dev nD) (t : Fin cfg0.N) (h : Fin 64) (w : Fin 256) :
    pxBlk m c t (ix2 h w) = coordsArr m c (ix3 (tileLine t.val h) w 0) := by
  show iblk m c 4 t (ix2 h w) = _
  unfold iblk
  rw [View.read_apply]
  show V m c main_v1 _ = _
  rw [← planeX_apply]
  congr 1
  funext a
  apply Fin.ext
  match a with
  | ⟨0, _⟩ => show win0_4.index t 0 * 64 + 1 * h.val = 64 * (t.val % 4) + h.val; rw [(blockIdx_planes t).1.1]; omega
  | ⟨1, _⟩ => show win0_4.index t 1 * 256 + 1 * w.val = w.val; rw [(blockIdx_planes t).1.2]; omega

theorem pyBlk_apply (c : Dev nD) (t : Fin cfg0.N) (h : Fin 64) (w : Fin 256) :
    pyBlk m c t (ix2 h w) = coordsArr m c (ix3 (tileLine t.val h) w 1) := by
  show iblk m c 5 t (ix2 h w) = _
  unfold iblk
  rw [View.read_apply]
  show V m c main_v3 _ = _
  rw [← planeY_apply]
  congr 1
  funext a
  apply Fin.ext
  match a with
  | ⟨0, _⟩ => show win0_5.index t 0 * 64 + 1 * h.val = 64 * (t.val % 4) + h.val; rw [(blockIdx_planes t).2.1]; omega
  | ⟨1, _⟩ => show win0_5.index t 1 * 256 + 1 * w.val = w.val; rw [(blockIdx_planes t).2.2]; omega

/-! ### One point's update of the running total -/

/-- Point `t` adds tile `t`'s sum of squared errors to the running total. -/
theorem point_update (c : Dev nD) (t : Fin cfg0.N) (acc : Vec Ideal S1x1 .f32) :
    k0_pay1 (k0_pay4 (covBlk m c t)) (k0_pay5 (hgtBlk m c t)) (k0_pay6 (ctrBlk m c t) (covBlk m c t) (offBlk m c t) (pxBlk m c t) (pyBlk m c t)) (k0_pay7 (ctrBlk m c t) (pyBlk m c t)) (recBlk m c t) acc
      = fun _ => acc (ix2 0 0) + tileSum (pix m c) t.val := by
  rw [Tile.update_eq]
  funext _
  refine congrArg (acc (ix2 0 0) + ·) ?_
  unfold tileSum
  refine Finset.sum_congr rfl fun n _ => Finset.sum_congr rfl fun h _ => Finset.sum_congr rfl fun w _ => ?_
  rw [pxBlk_apply, pyBlk_apply, ctrBlk_apply, ctrBlk_apply, covBlk_apply, covBlk_apply, offBlk_apply, hgtBlk_apply, recBlk_apply]
  rfl

end Cert.KernelIdeal.Loss

end
-- ==== Proof.RunningTotal.lean ====
/-
  The kernel's result is the loss `totalErr` of the argument arrays.

  By induction on the grid point, the running total after point `n` is the sum of the first `n + 1` tile sums: the first
  point starts from a cleared total (zero plus the first tile sum is the first tile sum), every later point adds its
  tile's sum to what the point before left. The last point copies the new total into the result's buffer, and that is
  the only write-back of the [1, 1] result array; the reshape to a scalar after the region keeps its one entry. The
  sum of all 128 tile sums is the loss, in whatever order they were added.
-/
import proofs.«179539_j78932908966357_1_alg».proof.Proof.TileBlocks

open scoped BigOperators

noncomputable section

namespace Cert.KernelIdeal.Loss

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)
open Cert.PlaceFields

variable (m : (ℓ : Loc nD τ sig) → Buf (Elt Ideal) ℓ) (ρ : Dev nD → PrngReg)

/-! ### The running total, point by point -/

/-- The cleared total is zero. -/
theorem cleared : k0_pay2 (F := Ideal) (ix2 0 0) = 0 := by
  unfold k0_pay2
  rw [shapeCast_self]
  exact Ideal.ofBits_zero_f32

/-- The loss of this memory's argument arrays. -/
abbrev lossOf (c : Dev nD) : EReal :=
  totalErr (coordsArr m c) (realArr m c) (meansArr m c) (covDiagArr m c) (covOffArr m c) (scalesArr m c)

/-- What a point that is not the first leaves in the running total: its update of what the point before left. -/
theorem total_step (c : Dev nD) (t : Fin cfg0.N) (h0 : ¬t.val % 128 = 0) :
    (outsAt0 m c t.val t.isLt).2
      = k0_pay1 (k0_pay4 (covBlk m c t)) (k0_pay5 (hgtBlk m c t)) (k0_pay6 (ctrBlk m c t) (covBlk m c t) (offBlk m c t) (pxBlk m c t) (pyBlk m c t)) (k0_pay7 (ctrBlk m c t) (pyBlk m c t)) (recBlk m c t) (outsAt0 m c (t.val - 1) (Nat.lt_of_le_of_lt (Nat.sub_le _ _) t.isLt)).2 := by
  by_cases h1 : t.val % 128 = 127
  · rw [outsAt0_C m c t h0 h1]
    dsimp only
    exact total_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) _
  · rw [outsAt0_B m c t h0 h1]
    dsimp only
    exact total_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _

/-- What the first point leaves: its update of the cleared total. -/
theorem total_start (c : Dev nD) (t : Fin cfg0.N) (h0 : t.val % 128 = 0) :
    (outsAt0 m c t.val t.isLt).2 = k0_pay1 (k0_pay4 (covBlk m c t)) (k0_pay5 (hgtBlk m c t)) (k0_pay6 (ctrBlk m c t) (covBlk m c t) (offBlk m c t) (pxBlk m c t) (pyBlk m c t)) (k0_pay7 (ctrBlk m c t) (pyBlk m c t)) (recBlk m c t) (k0_pay2 (F := Ideal)) := by
  have hN : t.val < 128 := lt_of_lt_of_eq t.isLt nPoints
  have h1 : ¬t.val % 128 = 127 := by omega
  rw [outsAt0_A m c t h0 h1]
  dsimp only
  exact total_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- After point `n` the running total is the sum of the first `n + 1` tile sums. -/
theorem total_after (c : Dev nD) : ∀ (n : ℕ) (hn : n < cfg0.N),
    (outsAt0 m c n hn).2 = fun _ => ∑ s ∈ Finset.range (n + 1), tileSum (pix m c) s
  | 0, hn => by
    refine (total_start m c ⟨0, hn⟩ rfl).trans ?_
    refine (point_update m c ⟨0, hn⟩ _).trans ?_
    funext _
    rw [cleared, zero_add, Finset.sum_range_one]
  | n + 1, hn => by
    have hN : n + 1 < 128 := lt_of_lt_of_eq hn nPoints
    have ih := total_after c n (Nat.lt_of_succ_lt hn)
    refine (total_step m c ⟨n + 1, hn⟩ (by dsimp only; omega)).trans ?_
    refine (point_update m c ⟨n + 1, hn⟩ _).trans ?_
    show (fun _ => (outsAt0 m c n (Nat.lt_of_succ_lt hn)).2 (ix2 0 0) + tileSum (pix m c) (n + 1)) = _
    rw [ih]
    funext _
    exact (Finset.sum_range_succ _ _).symm

/-- There is a last point. -/
theorem exists_last : ∃ t : Fin cfg0.N, t.val % 128 = 127 := ⟨⟨127, by rw [nPoints]; decide⟩, rfl⟩

/-- At the last point the result's buffer receives the sum of all 128 tile sums: the loss. -/
theorem result_at_last (c : Dev nD) (t : Fin cfg0.N) (h1 : t.val % 128 = 127) :
    (outsAt0 m c t.val t.isLt).1 = fun _ => lossOf m c := by
  have hN : t.val < 128 := lt_of_lt_of_eq t.isLt nPoints
  have ht : t.val = 127 := by omega
  have h0 : ¬t.val % 128 = 0 := by omega
  rw [outsAt0_C m c t h0 h1]
  dsimp only
  refine (result_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) _).trans ?_
  refine (point_update m c t _).trans ?_
  rw [total_after m c (t.val - 1) _]
  funext _
  have e : t.val - 1 + 1 = t.val := by omega
  rw [e, ← Finset.sum_range_succ, ht, lossOf, totalErr_eq_tiles]

/-! ### The result array, and the scalar made of it -/

/-- The [1, 1] result array's contents at the end. -/
abbrev resultArr (c : Dev nD) : Buf (Elt Ideal) ((c.tc : Thread nD τ).loc main_v4) := fun _ => lossOf m c

/-- The one write-back, at the last point, writes the loss. -/
theorem flushed_eq (c : Dev nD) (t : Fin cfg0.N) (hf : (cfg0.win 7).flush t = true) :
    (dats m 0 c).flushed 7 t = ((cfg0.win 7).blk t).view.read (Elt Ideal) (resultArr m c) := by
  show (cfg0.win 7).cut (grid0.coords t) ((dats m 0 c).after 7 t) = _
  rw [after0_7, result_at_last m c t ((flush0_7 t).mp hf)]
  rfl

/-- So the result array ends holding the loss at its one entry. -/
theorem final_result (c : Dev nD) : (dats m 0 c).arrAt 7 cfg0.N = resultArr m c := by
  obtain ⟨t, ht⟩ := exists_last
  refine (dats m 0 c).arrAt_eq_of_cover 7 (resultArr m c) (flushed_eq m c) fun i => ⟨t, (flush0_7 t).mpr ht, ?_⟩
  have hi : i = ((cfg0.win 7).blk t).view.emb (ix2 0 0) := (idx11_eq i).trans (idx11_eq _).symm
  rw [hi]
  exact View.emb_mem_set _ _

/-- The scalar the program returns: the result array's one entry, the loss. -/
theorem result_scalar (c : Dev nD) :
    Pipeline.afterTail₀ cfgs (dats m) 0 (V0 m) [hostOps1] c main_v5 = fun _ => lossOf m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = resultArr m c :=
    (Pipeline.withArrays_arr spec0 launch0.win.arr_inj c _ _ 7).trans (final_result m c)
  funext i
  rw [e]
  rfl

/-- The run, read: every execution ends with the loss in the scalar result and the arguments as they were. -/
theorem run : θ_run defs (onTc (τ := τ) (main (F := Ideal))) ⟨m, fun _ => 0, ρ⟩ fun r => ∀ c : Dev nD,
      r.2.mem ((c.tc : Thread nD τ).loc main_v5) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (result_scalar m c),
      ((h c).2 main_arg0 (Pipeline.mem_restRefs_of main_arg0 (by decide) (by decide))).trans (W_main_arg0 m (dats m) c),
      ((h c).1 6).trans (((dats m 0 c).arrAt_in 6 rfl _).trans ((A_eq m c 6).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.Loss

end
-- ==== Proof.ReferenceSum.lean ====
/-
  The reference's result is the loss `totalErr` of the argument arrays.

  The reference flattens the pixels to one axis of 65536 = 256 * 256 (pixel `(h, w)` is position `p = 256 * h + w`),
  forms the offsets for every field and pixel, evaluates the prediction and the squared error on [512, 65536], views the
  result as [512, 256, 256] and sums everything from zero. Read at `(n, h, w)`, every stage is the corresponding piece of
  `pixelErr` at the same field and pixel: the flattening and its inverse cancel (`p / 256 = h`, `p % 256 = w`), and the
  two coordinates of a pixel are entries `2 * p` and `2 * p + 1` of the flattened [65536, 2] table. The total over
  all indices of the rank-3 array is the triple sum over its coordinates, and zero plus it is it.
-/
import proofs.«179539_j78932908966357_1_alg».proof.Proof.Gen.ReferenceIdeal.Read
import proofs.«179539_j78932908966357_1_alg».proof.Proof.SquaredError

open scoped BigOperators

noncomputable section

namespace Cert.ReferenceIdeal.Loss

open Cert.ReferenceIdeal Cert.ReferenceIdeal.Read Idealize.ShloMosaic Idealize.ShloMosaic.TcCoe Idealize.ShloMosaic.ValueIdx
open Cert.PlaceFields

/-- The flattened position of pixel `(h, w)`. -/
def pos (h w : Fin 256) : Fin 65536 := ⟨h.val * 256 + w.val, by have := h.isLt; have := w.isLt; omega⟩

variable (x0 : (⟨S256x256x2, .f32⟩ : BufTy).Contents (Elt Ideal)) (x1 : (⟨S512x256x256, .f32⟩ : BufTy).Contents (Elt Ideal))
  (x2 x3 : (⟨S512x2, .f32⟩ : BufTy).Contents (Elt Ideal)) (x4 x5 : (⟨S512x1, .f32⟩ : BufTy).Contents (Elt Ideal))

/-! ### The index maps at a field and a pixel -/

theorem i30 (n : Fin 512) (h w : Fin 256) : idx_main_v30 (ix3 n h w) = ix2 n (pos h w) := by
  have := n.isLt; have := h.isLt; have := w.isLt
  funext a
  match a with
  | ⟨0, _⟩ => exact Fin.ext (by show ((n.val * 256 + h.val) * 256 + w.val) / 65536 = n.val; omega)
  | ⟨1, _⟩ => exact Fin.ext (by show ((n.val * 256 + h.val) * 256 + w.val) % 65536 = h.val * 256 + w.val; omega)

theorem i9 (n : Fin 512) (p : Fin 65536) : idx_main_v9 (ix2 n p) = ix3 n p 0 := by
  have := n.isLt; have := p.isLt
  funext a
  match a with
  | ⟨0, _⟩ => exact Fin.ext (by show (n.val * 65536 + p.val) / 65536 = n.val; omega)
  | ⟨1, _⟩ => exact Fin.ext (by show (n.val * 65536 + p.val) / 1 % 65536 = p.val; omega)
  | ⟨2, _⟩ => rfl

theorem i11 (n : Fin 512) (p : Fin 65536) : idx_main_v11 (ix2 n p) = ix3 n p 0 := i9 n p

theorem i8 (n : Fin 512) (p : Fin 65536) : idx_main_v8 (ix3 n p 0) = ix3 n p 0 := by
  funext a
  match a with
  | ⟨0, _⟩ => rfl
  | ⟨1, _⟩ => rfl
  | ⟨2, _⟩ => rfl

theorem i10 (n : Fin 512) (p : Fin 65536) : idx_main_v10 (ix3 n p 0) = ix3 n p 1 := by
  funext a
  match a with
  | ⟨0, _⟩ => rfl
  | ⟨1, _⟩ => rfl
  | ⟨2, _⟩ => rfl

theorem i3 (n : Fin 512) (p : Fin 65536) (k : Fin 2) : idx_main_v3 (ix3 n p k) = ix3 0 p k := by
  funext a
  match a with
  | ⟨0, _⟩ => rfl
  | ⟨1, _⟩ => rfl
  | ⟨2, _⟩ => rfl

theorem i4 (n : Fin 512) (p : Fin 65536) (k : Fin 2) : idx_main_v4 (ix3 n p k) = ix3 n 0 k := by
  funext a
  match a with
  | ⟨0, _⟩ => rfl
  | ⟨1, _⟩ => rfl
  | ⟨2, _⟩ => rfl

theorem i1 (p : Fin 65536) (k : Fin 2) : idx_main_v1 (ix3 0 p k) = ix2 p k := by
  funext a
  match a with
  | ⟨0, _⟩ => rfl
  | ⟨1, _⟩ => rfl

theorem i2 (n : Fin 512) (k : Fin 2) : idx_main_v2 (ix3 n 0 k) = ix2 n k := by
  funext a
  match a with
  | ⟨0, _⟩ => rfl
  | ⟨1, _⟩ => rfl

theorem i0 (h w : Fin 256) (k : Fin 2) : idx_main_v0 (ix2 (pos h w) k) = ix3 h w k := by
  have := h.isLt; have := w.isLt; have := k.isLt
  funext a
  match a with
  | ⟨0, _⟩ => exact Fin.ext (by show ((h.val * 256 + w.val) * 2 + k.val) / 512 = h.val; omega)
  | ⟨1, _⟩ => exact Fin.ext (by show ((h.val * 256 + w.val) * 2 + k.val) / 2 % 256 = w.val; omega)
  | ⟨2, _⟩ => exact Fin.ext (by show ((h.val * 256 + w.val) * 2 + k.val) % 2 = k.val; omega)

theorem icol (n : Fin 512) (p : Fin 65536) : idx_main_v13 (ix2 n p) = ix2 n 0 := by
  funext a
  match a with
  | ⟨0, _⟩ => rfl
  | ⟨1, _⟩ => rfl

theorem i6 (n : Fin 512) : idx_main_v6 (ix2 n 0) = ix2 n 0 := by
  funext a
  match a with
  | ⟨0, _⟩ => rfl
  | ⟨1, _⟩ => rfl

theorem i7 (n : Fin 512) : idx_main_v7 (ix2 n 0) = ix2 n 1 := by
  funext a
  match a with
  | ⟨0, _⟩ => rfl
  | ⟨1, _⟩ => rfl

/-! ### The stages at a field and a pixel -/

/-- Coordinate `k` of pixel `(h, w)`, broadcast over the fields. -/
theorem pixel_coord (n : Fin 512) (h w : Fin 256) (k : Fin 2) :
    val_main_v3 (F := Ideal) x0 (ix3 n (pos h w) k) = x0 (ix3 h w k) := by
  rw [val_main_v3_apply, i3, val_main_v1_apply, i1, val_main_v0_apply, i0]

/-- Coordinate `k` of field `n`'s centre, broadcast over the pixels. -/
theorem centre_coord (n : Fin 512) (p : Fin 65536) (k : Fin 2) :
    val_main_v4 (F := Ideal) x2 (ix3 n p k) = x2 (ix2 n k) := by
  rw [val_main_v4_apply, i4, val_main_v2_apply, i2]

/-- The horizontal offset of the pixel from the centre. -/
theorem offset_x (n : Fin 512) (h w : Fin 256) :
    val_main_v9 (F := Ideal) x0 x2 (ix2 n (pos h w)) = x0 (ix3 h w 0) - x2 (ix2 n 0) := by
  rw [val_main_v9_apply, i9, val_main_v8_apply, i8, val_main_v5_apply, pixel_coord, centre_coord]
  rfl

/-- The vertical offset. -/
theorem offset_y (n : Fin 512) (h w : Fin 256) :
    val_main_v11 (F := Ideal) x0 x2 (ix2 n (pos h w)) = x0 (ix3 h w 1) - x2 (ix2 n 1) := by
  rw [val_main_v11_apply, i11, val_main_v10_apply, i10, val_main_v5_apply, pixel_coord, centre_coord]
  rfl

theorem cov_a (n : Fin 512) (p : Fin 65536) : val_main_v13 (F := Ideal) x3 (ix2 n p) = x3 (ix2 n 0) := by
  rw [val_main_v13_apply, icol, val_main_v6_apply, i6]

theorem cov_c (n : Fin 512) (p : Fin 65536) : val_main_v22 (F := Ideal) x3 (ix2 n p) = x3 (ix2 n 1) := by
  rw [val_main_v22_apply, show idx_main_v22 (ix2 n p) = ix2 n 0 from icol n p, val_main_v7_apply, i7]

theorem cov_b (n : Fin 512) (p : Fin 65536) : val_main_v18 (F := Ideal) x4 (ix2 n p) = x4 (ix2 n 0) := by
  rw [val_main_v18_apply, show idx_main_v18 (ix2 n p) = ix2 n 0 from icol n p]

theorem height (n : Fin 512) (p : Fin 65536) : val_main_v28 (F := Ideal) x5 (ix2 n p) = x5 (ix2 n 0) := by
  rw [val_main_v28_apply, show idx_main_v28 (ix2 n p) = ix2 n 0 from icol n p]

/-- The squared error the reference forms at `(n, h, w)` is `pixelErr` there. -/
theorem stage_eq_pixelErr (n : Fin 512) (h w : Fin 256) :
    val_main_v32 (F := Ideal) x0 x1 x2 x3 x4 x5 (ix3 n h w) = pixelErr x0 x1 x2 x3 x4 x5 n h w := by
  have e30 : val_main_v30 (F := Ideal) x0 x2 x3 x4 x5 (ix3 n h w)
      = predicted (x0 (ix3 h w 0)) (x0 (ix3 h w 1)) (x2 (ix2 n 0)) (x2 (ix2 n 1)) (x3 (ix2 n 0)) (x4 (ix2 n 0)) (x3 (ix2 n 1)) (x5 (ix2 n 0)) := by
    rw [val_main_v30_apply, i30, val_main_v29_apply, val_main_v27_apply, val_main_v26_apply, val_main_v24_apply, val_main_v20_apply,
      val_main_v14_apply, val_main_v12_apply, val_main_v19_apply, val_main_v17_apply, val_main_v16_apply, val_main_v23_apply,
      val_main_v21_apply, height, offset_x, offset_y, cov_a, cov_b, cov_c, val_main_v25_apply, val_main_v15_apply]
    rfl
  rw [val_main_v32_apply, val_main_v31_apply, e30]
  rfl

/-- The reference's result: the loss, at its one index. -/
theorem result_eq : val_main_v33 (F := Ideal) x0 x1 x2 x3 x4 x5 = fun _ => totalErr x0 x1 x2 x3 x4 x5 := by
  funext i
  rw [val_main_v33_apply, sum_idx3]
  show Ideal.ofBits .f32 0x00000000#32 + _ = _
  rw [Ideal.ofBits_zero_f32, zero_add]
  unfold totalErr
  exact Finset.sum_congr rfl fun n _ => Finset.sum_congr rfl fun h _ => Finset.sum_congr rfl fun w _ =>
    stage_eq_pixelErr x0 x1 x2 x3 x4 x5 n h w

end Cert.ReferenceIdeal.Loss

end
-- ==== Proof.lean ====
/-
  Place fields: the squared error of 512 Gaussian bumps against recorded values over a 256 × 256 image, summed to one
  number. The kernel streams the recorded values tile by tile over a 32 × 4 grid and keeps a running total across the
  grid; the reference evaluates everything at once and sums it. Over the extended reals both compute, at each field
  and pixel, the same term with the same grouping (`sqErr`), so the claim is about sums only: the kernel's result is
  the tiles' sums added in grid order onto a cleared total, the reference's is zero plus the sum over the whole array,
  and both are the loss `totalErr` because addition of extended reals is commutative and associative and the tiles
  partition the array. No finiteness of the inputs is used.

  The kernel's two frames are the generated ones; the reference's frame is its generated run with the result dropped;
  the ideal pass rewrote nothing, so the kernel's idealization is the kernel's own text.
-/
import proofs.«179539_j78932908966357_1_alg».proof.Defs
import proofs.«179539_j78932908966357_1_alg».proof.Proof.Gen.Kernel
import proofs.«179539_j78932908966357_1_alg».proof.Proof.Gen.Kernel.Skeleton
import proofs.«179539_j78932908966357_1_alg».proof.Proof.Gen.Kernel.Launch
import proofs.«179539_j78932908966357_1_alg».proof.Proof.Gen.Kernel.Points
import proofs.«179539_j78932908966357_1_alg».proof.Proof.Gen.Kernel.Frame
import proofs.«179539_j78932908966357_1_alg».proof.Proof.Gen.KernelIdeal
import proofs.«179539_j78932908966357_1_alg».proof.Proof.Gen.KernelIdeal.Skeleton
import proofs.«179539_j78932908966357_1_alg».proof.Proof.Gen.KernelIdeal.Launch
import proofs.«179539_j78932908966357_1_alg».proof.Proof.Gen.KernelIdeal.Points
import proofs.«179539_j78932908966357_1_alg».proof.Proof.Gen.KernelIdeal.Frame
import proofs.«179539_j78932908966357_1_alg».proof.Proof.Gen.ReferenceIdeal
import proofs.«179539_j78932908966357_1_alg».proof.Proof.Gen.ReferenceIdeal.Run
import proofs.«179539_j78932908966357_1_alg».proof.Proof.Gen.ReferenceIdeal.Read
import proofs.«179539_j78932908966357_1_alg».proof.Proof.Gen.Pre_finite_inputs
import proofs.«179539_j78932908966357_1_alg».proof.Proof.RunningTotal
import proofs.«179539_j78932908966357_1_alg».proof.Proof.ReferenceSum
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: it runs its host operations and leaves its arguments alone. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the argument arrays in their scalar result. -/
theorem algebraic : Cert.algebraic_KernelIdeal_ReferenceIdeal := by
  intro m ρ m' ρ' _ hagree
  refine ⟨fun c => fun _ => Cert.KernelIdeal.Loss.lossOf m c, Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq m' c).trans ?_
  refine (Cert.ReferenceIdeal.Loss.result_eq _ _ _ _ _ _).trans ?_
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
